-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 14
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S400x10000, .f32⟩
  | .local _ .vmem, ⟨12, _⟩ => ⟨S400x10000, .f32⟩
  | .local _ .vmem, ⟨13, _⟩ => ⟨S10000x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S400x128, .f32⟩
  | .local _ .vmem, ⟨18, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .f32 = 32 ∨ (Rect.block (s := S10000x128) S400x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v3) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S400x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S1x128, .f32⟩
  | .hbm, ⟨26, _⟩ => ⟨S10000x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnSpec.lean ====
/-
  The two-layer graph convolution over the extended reals, as whole-array functions read index by index.

  With N = 10000 nodes and 128 features per node, for node features `h`, a dense adjacency `adj`, a weight `w`
  and a bias `b`:
    * `dense h w`      — every node's feature row through the weight:  (h · w)[r, q] = ∑ₖ h[r, k] · w[k, q];
    * `aggregate adj s` — every node gathers its neighbours' rows:        (adj · s)[r, q] = ∑ⱼ adj[r, j] · s[j, q];
    * `biasRelu z b`   — max (z[r, q] + b[q]) 0;   `biasTanh z b` — tanh (z[r, q] + b[q]).
  The network is  tanh (relu (adj · (relu (adj · (x · W1) + b1) · W3) + b3) · Wf + bf).

  A layer applied to a block of rows of the adjacency gives the same rows of the layer applied to the whole
  adjacency: each output row depends on one row of `adj` only. That is all the tiling of the kernel uses, and it is
  why no law of the extended reals beyond reading a sum at an index is needed: both programs form the same sums.
-/
import Idealize.ShloMosaic.PureOps.Ideal
import Idealize.ShloMosaic.Lib.ValueIdx

noncomputable section

namespace Cert.GcnSpec

open Idealize.ShloMosaic Idealize.ShloMosaic.ValueIdx

/-- Node features, or any [10000, 128] array of extended reals. -/
abbrev Feat : Type := (⟨2, ![10000, 128]⟩ : Shape).Idx → EReal
/-- The dense adjacency. -/
abbrev Adj : Type := (⟨2, ![10000, 10000]⟩ : Shape).Idx → EReal
/-- A 128 × 128 weight. -/
abbrev Wt : Type := (⟨2, ![128, 128]⟩ : Shape).Idx → EReal
/-- A bias vector, and the same laid out as one row. -/
abbrev Bias : Type := (⟨1, ![128]⟩ : Shape).Idx → EReal
abbrev BiasRow : Type := (⟨2, ![1, 128]⟩ : Shape).Idx → EReal

/-- `h · w`: entry (r, q) is the sum over the 128 features k of h[r, k] · w[k, q]. -/
def dense (h : Feat) (w : Wt) : Feat :=
  fun i => ∑ k : Fin 128, h (ix2 (i 0) k) * w (ix2 k (i 1))

/-- `adj · s`: entry (r, q) is the sum over the 10000 nodes j of adj[r, j] · s[j, q]. -/
def aggregate (adj : Adj) (s : Feat) : Feat :=
  fun i => ∑ j : Fin 10000, adj (ix2 (i 0) j) * s (ix2 j (i 1))

/-- The bias row added to every node's row, then the rectifier. -/
def biasReluRow (z : Feat) (b : BiasRow) : Feat :=
  fun i => max (z i + b (ix2 (0 : Fin 1) (i 1))) 0

/-- The bias row added to every node's row, then the hyperbolic tangent. -/
def biasTanhRow (z : Feat) (b : BiasRow) : Feat :=
  fun i => Ideal.tanh (z i + b (ix2 (0 : Fin 1) (i 1)))

/-- A bias vector as one row: [128] → [1, 128]. -/
def asRow (b : Bias) : BiasRow := fun i => b (ix1 (i 1))

/-- The same two with the bias as a vector. -/
def biasRelu (z : Feat) (b : Bias) : Feat := fun i => max (z i + b (ix1 (i 1))) 0
def biasTanh (z : Feat) (b : Bias) : Feat := fun i => Ideal.tanh (z i + b (ix1 (i 1)))

theorem biasReluRow_asRow (z : Feat) (b : Bias) : biasReluRow z (asRow b) = biasRelu z b := rfl
theorem biasTanhRow_asRow (z : Feat) (b : Bias) : biasTanhRow z (asRow b) = biasTanh z b := rfl

/-- The first projection  x · W1. -/
def support (x : Feat) (w1 : Wt) : Feat := dense x w1

/-- One hidden layer followed by the next projection:  relu (adj · s + b) · w. -/
def hidden (adj : Adj) (s : Feat) (b : BiasRow) (w : Wt) : Feat :=
  dense (biasReluRow (aggregate adj s) b) w

/-- The last layer with the output head:  tanh (relu (adj · t + b) · w + b'). -/
def head (adj : Adj) (t : Feat) (b : BiasRow) (w : Wt) (b' : BiasRow) : Feat :=
  biasTanhRow (dense (biasReluRow (aggregate adj t) b) w) b'

/-- The whole network. -/
def gcn (x : Feat) (adj : Adj) (w1 : Wt) (b1 : Bias) (w3 : Wt) (b3 : Bias) (wf : Wt) (bf : Bias) : Feat :=
  head adj (hidden adj (support x w1) (asRow b1) w3) (asRow b3) wf (asRow bf)

/-- The same, layer by layer with vector biases (the shape the reference program computes it in). -/
theorem gcn_eq (x : Feat) (adj : Adj) (w1 : Wt) (b1 : Bias) (w3 : Wt) (b3 : Bias) (wf : Wt) (bf : Bias) :
    gcn x adj w1 b1 w3 b3 wf bf
      = biasTanh (dense (biasRelu (aggregate adj (dense (biasRelu (aggregate adj (dense x w1)) b1) w3)) b3) wf) bf := rfl

/-! ## A block of 400 rows

The kernel computes 400 rows of a layer at a time from the same 400 rows of the adjacency. The two functions below are
the layers on such a block; `hiddenRows_eq` and `headRows_eq` say that row `p` of the block's result is row `r` of
the whole layer whenever row `p` of the block of the adjacency is row `r` of the adjacency. -/

/-- 400 rows of the adjacency, and 400 rows of features. -/
abbrev AdjRows : Type := (⟨2, ![400, 10000]⟩ : Shape).Idx → EReal
abbrev FeatRows : Type := (⟨2, ![400, 128]⟩ : Shape).Idx → EReal

/-- `relu (a · s + b) · w` on a block of rows `a` of the adjacency. -/
def hiddenRows (a : AdjRows) (s : Feat) (b : BiasRow) (w : Wt) : FeatRows :=
  fun i => ∑ k : Fin 128, max ((∑ j : Fin 10000, a (ix2 (i 0) j) * s (ix2 j k)) + b (ix2 (0 : Fin 1) k)) 0 * w (ix2 k (i 1))

/-- `tanh (relu (a · t + b) · w + b')` on a block of rows `a` of the adjacency. -/
def headRows (a : AdjRows) (t : Feat) (b : BiasRow) (w : Wt) (b' : BiasRow) : FeatRows :=
  fun i => Ideal.tanh ((∑ k : Fin 128, max ((∑ j : Fin 10000, a (ix2 (i 0) j) * t (ix2 j k)) + b (ix2 (0 : Fin 1) k)) 0 * w (ix2 k (i 1)))
    + b' (ix2 (0 : Fin 1) (i 1)))

/-- The hidden layer at an index, written out. -/
theorem hidden_apply (adj : Adj) (s : Feat) (b : BiasRow) (w : Wt) (i : (⟨2, ![10000, 128]⟩ : Shape).Idx) :
    hidden adj s b w i
      = ∑ k : Fin 128, max ((∑ j : Fin 10000, adj (ix2 (i 0) j) * s (ix2 j k)) + b (ix2 (0 : Fin 1) k)) 0 * w (ix2 k (i 1)) := rfl

/-- The head at an index, written out. -/
theorem head_apply (adj : Adj) (t : Feat) (b : BiasRow) (w : Wt) (b' : BiasRow) (i : (⟨2, ![10000, 128]⟩ : Shape).Idx) :
    head adj t b w b' i
      = Ideal.tanh ((∑ k : Fin 128, max ((∑ j : Fin 10000, adj (ix2 (i 0) j) * t (ix2 j k)) + b (ix2 (0 : Fin 1) k)) 0 * w (ix2 k (i 1)))
        + b' (ix2 (0 : Fin 1) (i 1))) := rfl

/-- Row `y 0` of the block is row `i 0` of the adjacency and the columns agree: the block's hidden layer at `y` is the
    whole hidden layer at `i`. -/
theorem hiddenRows_eq (adj : Adj) (a : AdjRows) (s : Feat) (b : BiasRow) (w : Wt)
    (y : (⟨2, ![400, 128]⟩ : Shape).Idx) (i : (⟨2, ![10000, 128]⟩ : Shape).Idx)
    (hrow : ∀ j : Fin 10000, a (ix2 (y 0) j) = adj (ix2 (i 0) j)) (hcol : y 1 = i 1) :
    hiddenRows a s b w y = hidden adj s b w i := by
  rw [hidden_apply]
  unfold hiddenRows
  simp only [hrow, hcol]

/-- The same for the head. -/
theorem headRows_eq (adj : Adj) (a : AdjRows) (t : Feat) (b : BiasRow) (w : Wt) (b' : BiasRow)
    (y : (⟨2, ![400, 128]⟩ : Shape).Idx) (i : (⟨2, ![10000, 128]⟩ : Shape).Idx)
    (hrow : ∀ j : Fin 10000, a (ix2 (y 0) j) = adj (ix2 (i 0) j)) (hcol : y 1 = i 1) :
    headRows a t b w b' y = head adj t b w b' i := by
  rw [head_apply]
  unfold headRows
  simp only [hrow, hcol]

end Cert.GcnSpec

end
-- ==== Proof.Payloads.lean ====
/-
  What each kernel body stores, as a function of the blocks it loads, read at the extended reals:
    * the projection body stores  x · w                       (`GcnSpec.dense`),
    * the hidden-layer body       relu (a · s + b) · w        (`GcnSpec.hiddenRows`),
    * the output body             tanh (relu (a · t + b) · w + b')   (`GcnSpec.headRows`),
  where `a` is the block of 400 rows of the adjacency the body was handed. A matrix product into a zero accumulator is
  the plain sum over the contracted axis; the casts to the same shape are the identity; the bias row is broadcast down
  the 400 rows.
-/
import proofs.«164822_g71992241816152_cont_sun_m_564_21_alg».proof.Proof.Gen.KernelIdeal.Skeleton
import proofs.«164822_g71992241816152_cont_sun_m_564_21_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.TcCoe Idealize.ShloMosaic.ValueIdx

/-! ## The three matrix products read at an index

Each product contracts the left operand's axis 1 with the right operand's axis 0. Its contraction index set has one
axis; re-indexing the sum through that axis' coordinate turns it into a sum over `Fin K`, and the operand indices
at output index (p, q) and contraction coordinate k are (p, k) and (k, q). -/

theorem lhs_proj_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_proj_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_proj_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_proj_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The projection's product at (p, q): ∑ₖ x[p, k] · w[k, q]. -/
theorem proj_matmul_apply (x : FVec Ideal S10000x128 .f32) (w : FVec Ideal S128x128 .f32) (p : Fin 10000) (q : Fin 128) :
    matmul (F := Ideal) dot_S10000x128_S128x128_S10000x128_1_0_0_1_n_n none x w (constant S10000x128 .f32 0x00000000#32) (ix2 p q)
      = ∑ k : Fin 128, x (ix2 p k) * w (ix2 k q) := by
  unfold matmul
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k :=
    funext fun a => Fin.ext (by
      match a with
      | ⟨0, _⟩ => exact lhs_proj_0 _ _
      | ⟨1, _⟩ => exact (lhs_proj_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q :=
    funext fun a => Fin.ext (by
      match a with
      | ⟨0, _⟩ => exact (rhs_proj_0 _ _).trans hk
      | ⟨1, _⟩ => exact rhs_proj_1 _ _)
  rw [el, er]

/-- The projection body's store is `x · w`. -/
theorem proj_pay (x : Vec Ideal S10000x128 .f32) (w : Vec Ideal S128x128 .f32) :
    k0_pay1 (F := Ideal) x w = Cert.GcnSpec.dense x w := by
  funext i
  obtain ⟨p, q, rfl⟩ : ∃ (p : Fin 10000) (q : Fin 128), i = ix2 p q := ⟨i 0, i 1, eq_ix2 i⟩
  unfold k0_pay1
  exact proj_matmul_apply x w p q

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The aggregation's product on a block of rows at (p, q): ∑ⱼ a[p, j] · s[j, q]. -/
theorem agg_matmul_apply (a : FVec Ideal S400x10000 .f32) (s : FVec Ideal S10000x128 .f32) (p : Fin 400) (q : Fin 128) :
    matmul (F := Ideal) dot_S400x10000_S10000x128_S400x128_1_0_0_1_n_n none a s (constant S400x128 .f32 0x00000000#32) (ix2 p q)
      = ∑ k : Fin 10000, a (ix2 p k) * s (ix2 k q) := by
  unfold matmul
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k :=
    funext fun a => Fin.ext (by
      match a with
      | ⟨0, _⟩ => exact lhs_agg_0 _ _
      | ⟨1, _⟩ => exact (lhs_agg_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q :=
    funext fun a => Fin.ext (by
      match a with
      | ⟨0, _⟩ => exact (rhs_agg_0 _ _).trans hk
      | ⟨1, _⟩ => exact rhs_agg_1 _ _)
  rw [el, er]

theorem lhs_out_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
theorem lhs_out_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_out_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_out_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- The layer's weight product on a block of rows at (p, q): ∑ₖ z[p, k] · w[k, q]. -/
theorem out_matmul_apply (z : FVec Ideal S400x128 .f32) (w : FVec Ideal S128x128 .f32) (p : Fin 400) (q : Fin 128) :
    matmul (F := Ideal) dot_S400x128_S128x128_S400x128_1_0_0_1_n_n none z w (constant S400x128 .f32 0x00000000#32) (ix2 p q)
      = ∑ k : Fin 128, z (ix2 p k) * w (ix2 k q) := by
  unfold matmul
  rw [Ideal.matmul_constant_zero_apply, ← Equiv.sum_comp (contrEquiv1 dot_S400x128_S128x128_S400x128_1_0_0_1_n_n 128 rfl rfl).symm]
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 p q) ((contrEquiv1 dot_S400x128_S128x128_S400x128_1_0_0_1_n_n 128 rfl rfl).symm k) = ix2 p k :=
    funext fun a => Fin.ext (by
      match a with
      | ⟨0, _⟩ => exact lhs_out_0 _ _
      | ⟨1, _⟩ => exact (lhs_out_1 _ _).trans hk)
  have er : dot_S400x128_S128x128_S400x128_1_0_0_1_n_n.rhsIdx (ix2 p q) ((contrEquiv1 dot_S400x128_S128x128_S400x128_1_0_0_1_n_n 128 rfl rfl).symm k) = ix2 k q :=
    funext fun a => Fin.ext (by
      match a with
      | ⟨0, _⟩ => exact (rhs_out_0 _ _).trans hk
      | ⟨1, _⟩ => exact rhs_out_1 _ _)
  rw [el, er]

/-! ## The bias row, the zero word and the rectified layer at an index -/

/-- The bias row broadcast down the 400 rows, read at (p, k): b[0, k]. -/
theorem bias_row_apply (b : FVec Ideal S1x128 .f32) (h : S1x128.Broadcasts S400x128) (p : Fin 400) (k : Fin 128) :
    broadcastTo S400x128 b h (ix2 p k) = b (ix2 (0 : Fin 1) k) :=
  broadcastTo_apply b h (ix2 p k) (ix2 (0 : Fin 1) k) (fun a => match a with | ⟨0, _⟩ => rfl | ⟨1, _⟩ => rfl)

/-- The zero word read at the extended reals is 0. -/
theorem zero_word : FloatOps.ofBits (F := Ideal) .f32 0x00000000#32 = 0 := Ideal.ofBits_zero_f32

/-- The rectified layer `relu (a · s + b)` on a block of rows, read at (p, k): the casts to the same shape are the
    identity, the product into the zero accumulator is the sum over the 10000 nodes, the bias row is read at
    column k and the rectifier's zero splat is 0. -/
theorem relu_layer_apply (a : FVec Ideal S400x10000 .f32) (s : FVec Ideal S10000x128 .f32) (b : FVec Ideal S1x128 .f32)
    (hs : S10000x128.ShapeCasts S10000x128) (hb : S1x128.ShapeCasts S1x128) (hbr : S1x128.Broadcasts S400x128)
    (p : Fin 400) (k : Fin 128) :
    maximumf
        (addf (matmul (F := Ideal) dot_S400x10000_S10000x128_S400x128_1_0_0_1_n_n none a (shapeCast S10000x128 s hs) (constant S400x128 .f32 0x00000000#32))
          (broadcastTo S400x128 (shapeCast S1x128 b hb) hbr))
        (broadcast S400x128 (FloatOps.ofBits (F := Ideal) .f32 0x00000000#32)) (ix2 p k)
      = max ((∑ j : Fin 10000, a (ix2 p j) * s (ix2 j k)) + b (ix2 (0 : Fin 1) k)) 0 := by
  rw [maximumf_apply, addf_apply, broadcast_apply, shapeCast_self, shapeCast_self, agg_matmul_apply, bias_row_apply,
    zero_word]

/-- The hidden-layer body's store is `relu (a · s + b) · w` on its block of rows. -/
theorem hidden_pay (a : Vec Ideal S400x10000 .f32) (s : Vec Ideal S10000x128 .f32) (b : Vec Ideal S1x128 .f32)
    (w : Vec Ideal S128x128 .f32) :
    k1_pay1 (F := Ideal) a s b w = Cert.GcnSpec.hiddenRows a s b w := by
  funext i
  obtain ⟨p, q, rfl⟩ : ∃ (p : Fin 400) (q : Fin 128), i = ix2 p q := ⟨i 0, i 1, eq_ix2 i⟩
  unfold k1_pay1
  rw [out_matmul_apply]
  unfold Cert.GcnSpec.hiddenRows
  refine Finset.sum_congr rfl fun k _ => ?_
  rw [relu_layer_apply]

/-- The output body's store is `tanh (relu (a · t + b) · w + b')` on its block of rows. -/
theorem head_pay (a : Vec Ideal S400x10000 .f32) (t : Vec Ideal S10000x128 .f32) (b : Vec Ideal S1x128 .f32)
    (w : Vec Ideal S128x128 .f32) (b' : Vec Ideal S1x128 .f32) :
    k2_pay1 (F := Ideal) a t b w b' = Cert.GcnSpec.headRows a t b w b' := by
  funext i
  obtain ⟨p, q, rfl⟩ : ∃ (p : Fin 400) (q : Fin 128), i = ix2 p q := ⟨i 0, i 1, eq_ix2 i⟩
  unfold k2_pay1 Cert.GcnSpec.headRows tanh
  rw [Ideal.tanh_def, addf_apply, out_matmul_apply, bias_row_apply, shapeCast_self b']
  refine congrArg Ideal.tanh (congrArg₂ (· + ·) (Finset.sum_congr rfl fun k _ => ?_) rfl)
  rw [relu_layer_apply]

end Cert.KernelIdeal.Payloads

end
-- ==== Proof.RegionArrays.lean ====
/-
  What each region leaves in its output array, as a whole-array function of the arrays the region was entered with.

  Every region stores its whole output block at each grid point, so the block a point writes back is the body's payload
  of the point's input blocks. The payloads are the specification's functions on blocks (`Payloads`); the input
  windows other than the adjacency are whole arrays at block (0, 0); the adjacency's block at point `t` is rows
  400·t … 400·t + 399, the same rows the output block covers; and a row of a layer reads one row of the adjacency. So
  point `t` writes back rows 400·t … of the layer of the whole arrays, the 25 blocks cover the 10000 rows, and the
  array ends holding the layer. The projection has no grid: its one block is the whole array.
-/
import proofs.«164822_g71992241816152_cont_sun_m_564_21_alg».proof.Proof.Gen.KernelIdeal.Frame
import proofs.«164822_g71992241816152_cont_sun_m_564_21_alg».proof.Proof.Payloads
import proofs.«164822_g71992241816152_cont_sun_m_564_21_alg».proof.Proof.GcnSpec
import Idealize.ShloMosaic.Lib.Pipeline.Value

set_option maxRecDepth 16384

noncomputable section

namespace Cert.KernelIdeal.Arrays

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The projection's region (no grid: one point, every window the whole array) -/

/-- At the one point every window sits at block (0, 0). -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The features' window is the whole array. -/
theorem blk0_0 (c : Dev nD) (t : Fin cfg0.N) : iblk0 V c 0 t = V c main_arg0 := by
  obtain ⟨e0, e1, -⟩ := idx0 t
  funext y
  show V c main_arg0 (((cfg0.win 0).blk t).view.emb y) = V c main_arg0 y
  refine congrArg _ ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- So is the weight's. -/
theorem blk0_1 (c : Dev nD) (t : Fin cfg0.N) : iblk0 V c 1 t = V c main_arg2 := by
  obtain ⟨-, -, e0, e1, -⟩ := idx0 t
  funext y
  show V c main_arg2 (((cfg0.win 1).blk t).view.emb y) = V c main_arg2 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- What the one point writes back is the whole projection `x · W1` of the arrays as the region finds them. -/
theorem support_flushed (c : Dev nD) (t : Fin cfg0.N) :
    (dat0 V c).flushed 2 t = ((cfg0.win 2).blk t).view.read (Elt Ideal)
      (Cert.GcnSpec.support (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [Payloads.proj_pay, blk0_0 V c t, blk0_1 V c t]
  obtain ⟨-, -, -, -, e0, e1⟩ := idx0 t
  funext y
  show Cert.GcnSpec.dense (V c main_arg0) (V c main_arg2) y
    = Cert.GcnSpec.dense (V c main_arg0) (V c main_arg2) (((cfg0.win 2).blk t).view.emb y)
  refine congrArg _ ?_
  funext a; apply Fin.ext
  match a with
  | ⟨0, _⟩ => show (y 0).val = win0_2.index t (0 : Fin 2) * 10000 + 1 * (y 0).val; omega
  | ⟨1, _⟩ => show (y 1).val = win0_2.index t (1 : Fin 2) * 128 + 1 * (y 1).val; omega

/-- An index of the array is in the one point's block iff each coordinate is in the block's range on its axis. -/
theorem mem_blk0 (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v3).slice (win0_2.rect t)).set ↔ _
  rw [View.set_slice_whole, Rect.mem_set_unit]
  exact Iff.rfl

/-- The one block is the whole array. -/
theorem cover0 (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  have t : Fin cfg0.N := ⟨0, by decide⟩
  obtain ⟨-, -, -, -, e0, e1⟩ := idx0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the region its output array holds `x · W1` of the arrays the region was entered with. -/
theorem support_array (c : Dev nD) :
    (dat0 V c).arrAt 2 cfg0.N = Cert.GcnSpec.support (V c main_arg0) (V c main_arg2) :=
  (dat0 V c).arrAt_eq_of_cover 2 _ (fun t _ => support_flushed V c t) (cover0)

/-! ## The hidden layer's region -/

/-- The printed index maps over the 25 points: the adjacency's block and the output's block move together down the rows,
    every other window stays at block (0, 0), and the row block index is at most 24. -/
theorem idx1 : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_5.index t (1 : Fin 2) = 0 ∧ win1_5.index t (0 : Fin 2) ≤ 24 :=
  (by decide +kernel : ∀ t : Fin grid1.N, _)

/-- Every block of 400 rows is some point's. -/
theorem onto1 : ∀ q : Fin 25, ∃ t : Fin cfg1.N, win1_5.index t = ![q.val, 0] :=
  (by decide +kernel : ∀ q : Fin 25, ∃ t : Fin grid1.N, win1_5.index t = ![q.val, 0])

/-- The support matrix's window is the whole array at every point. -/
theorem blk1_1 (c : Dev nD) (t : Fin cfg1.N) : iblk1 V c 1 t = V c main_v3 := by
  obtain ⟨-, -, e0, e1, -⟩ := idx1 t
  funext y
  show V c main_v3 (((cfg1.win 1).blk t).view.emb y) = V c main_v3 y
  refine congrArg _ ?_
  funext a; apply Fin.ext
  match a with
  | ⟨0, _⟩ => show win1_1.index t (0 : Fin 2) * 10000 + 1 * (y 0).val = (y 0).val; omega
  | ⟨1, _⟩ => show win1_1.index t (1 : Fin 2) * 128 + 1 * (y 1).val = (y 1).val; omega

/-- So is the bias row's. -/
theorem blk1_2 (c : Dev nD) (t : Fin cfg1.N) : iblk1 V c 2 t = V c main_v0 := by
  obtain ⟨-, -, -, -, e0, e1, -⟩ := idx1 t
  funext y
  show V c main_v0 (((cfg1.win 2).blk t).view.emb y) = V c main_v0 y
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- And the weight's. -/
theorem blk1_3 (c : Dev nD) (t : Fin cfg1.N) : iblk1 V c 3 t = V c main_arg4 := by
  obtain ⟨-, -, -, -, -, -, e0, e1, -⟩ := idx1 t
  funext y
  show V c main_arg4 (((cfg1.win 3).blk t).view.emb y) = V c main_arg4 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- What point `t` writes back is block `t` of the hidden layer of the arrays as the region finds them: the point's 400
    rows of the adjacency are rows `400·t …` of the adjacency, and a row of the layer reads one row of the adjacency. -/
theorem hidden_flushed (c : Dev nD) (t : Fin cfg1.N) :
    (dat1 V c).flushed 5 t = ((cfg1.win 5).blk t).view.read (Elt Ideal)
      (Cert.GcnSpec.hidden (V c main_arg1) (V c main_v3) (V c main_v0) (V c main_arg4)) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x128) hz, View.ld_unit_zero (S := S1x128) hz, View.ld_unit_zero (S := S128x128) hz]
  rw [Payloads.hidden_pay, blk1_1 V c t, blk1_2 V c t, blk1_3 V c t]
  obtain ⟨e0, e1, -, -, -, -, -, -, e2, -⟩ := idx1 t
  funext y
  show Cert.GcnSpec.hiddenRows (iblk1 V c 0 t) (V c main_v3) (V c main_v0) (V c main_arg4) y
    = Cert.GcnSpec.hidden (V c main_arg1) (V c main_v3) (V c main_v0) (V c main_arg4) (((cfg1.win 5).blk t).view.emb y)
  refine Cert.GcnSpec.hiddenRows_eq (V c main_arg1) (iblk1 V c 0 t) (V c main_v3) (V c main_v0) (V c main_arg4) y
    (((cfg1.win 5).blk t).view.emb y) (fun j => ?_) ?_
  · show V c main_arg1 (((cfg1.win 0).blk t).view.emb (ix2 (y 0) j)) = V c main_arg1 (ix2 ((((cfg1.win 5).blk t).view.emb y) 0) j)
    refine congrArg _ ?_
    funext a; apply Fin.ext
    match a with
    | ⟨0, _⟩ => show win1_0.index t (0 : Fin 2) * 400 + 1 * (y 0).val = win1_5.index t (0 : Fin 2) * 400 + 1 * (y 0).val; omega
    | ⟨1, _⟩ => show win1_0.index t (1 : Fin 2) * 10000 + 1 * j.val = j.val; omega
  · apply Fin.ext
    show (y 1).val = win1_5.index t (1 : Fin 2) * 128 + 1 * (y 1).val
    omega

/-- An index of the array is in point `t`'s block iff each coordinate is in the block's range on its axis. -/
theorem mem_blk1 (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_v4).slice (win1_5.rect t)).set ↔ _
  rw [View.set_slice_whole, Rect.mem_set_unit]
  exact Iff.rfl

/-- The 25 blocks of 400 rows cover the array: row `r` is in the block of point `r / 400`. -/
theorem cover1 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  obtain ⟨t, ht⟩ := onto1 ⟨(i 0).val / 400, by omega⟩
  have q0 : win1_5.index t (0 : Fin 2) = (i 0).val / 400 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 128 ≤ (i 1).val ∧ (i 1).val < win1_5.index t (1 : Fin 2) * 128 + 128; omega

/-- After the region its output array holds the hidden layer of the arrays the region was entered with. -/
theorem hidden_array (c : Dev nD) :
    (dat1 V c).arrAt 5 cfg1.N = Cert.GcnSpec.hidden (V c main_arg1) (V c main_v3) (V c main_v0) (V c main_arg4) :=
  (dat1 V c).arrAt_eq_of_cover 5 _ (fun t _ => hidden_flushed V c t) (cover1)

/-! ## The output layer's region -/

/-- The printed index maps over the 25 points: the adjacency's block and the output's block move together down the rows,
    every other window stays at block (0, 0), and the row block index is at most 24. -/
theorem idx2 : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 24 :=
  (by decide +kernel : ∀ t : Fin grid2.N, _)

/-- Every block of 400 rows is some point's. -/
theorem onto2 : ∀ q : Fin 25, ∃ t : Fin cfg2.N, win2_5.index t = ![q.val, 0] :=
  (by decide +kernel : ∀ q : Fin 25, ∃ t : Fin grid2.N, win2_5.index t = ![q.val, 0])

/-- The hidden layer's output is read whole at every point. -/
theorem blk2_1 (c : Dev nD) (t : Fin cfg2.N) : iblk2 V c 1 t = V c main_v4 := by
  obtain ⟨-, -, e0, e1, -⟩ := idx2 t
  funext y
  show V c main_v4 (((cfg2.win 1).blk t).view.emb y) = V c main_v4 y
  refine congrArg _ ?_
  funext a; apply Fin.ext
  match a with
  | ⟨0, _⟩ => show win2_1.index t (0 : Fin 2) * 10000 + 1 * (y 0).val = (y 0).val; omega
  | ⟨1, _⟩ => show win2_1.index t (1 : Fin 2) * 128 + 1 * (y 1).val = (y 1).val; omega

/-- So is the layer's bias row. -/
theorem blk2_2 (c : Dev nD) (t : Fin cfg2.N) : iblk2 V c 2 t = V c main_v1 := by
  obtain ⟨-, -, -, -, e0, e1, -⟩ := idx2 t
  funext y
  show V c main_v1 (((cfg2.win 2).blk t).view.emb y) = V c main_v1 y
  refine congrArg _ ?_
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The head's weight. -/
theorem blk2_3 (c : Dev nD) (t : Fin cfg2.N) : iblk2 V c 3 t = V c main_arg6 := by
  obtain ⟨-, -, -, -, -, -, e0, e1, -⟩ := idx2 t
  funext y
  show V c main_arg6 (((cfg2.win 3).blk t).view.emb y) = V c main_arg6 y
  refine congrArg _ ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- And the head's bias row. -/
theorem blk2_4 (c : Dev nD) (t : Fin cfg2.N) : iblk2 V c 4 t = V c main_v2 := by
  obtain ⟨-, -, -, -, -, -, -, -, e0, e1, -⟩ := idx2 t
  funext y
  show V c main_v2 (((cfg2.win 4).blk t).view.emb y) = V c main_v2 y
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point `t` writes back is block `t` of the output layer with its head, of the arrays as the region finds them. -/
theorem head_flushed (c : Dev nD) (t : Fin cfg2.N) :
    (dat2 V c).flushed 5 t = ((cfg2.win 5).blk t).view.read (Elt Ideal)
      (Cert.GcnSpec.head (V c main_arg1) (V c main_v4) (V c main_v1) (V c main_arg6) (V c main_v2)) := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x128) hz, View.ld_unit_zero (S := S1x128) hz, View.ld_unit_zero (S := S128x128) hz]
  rw [Payloads.head_pay, blk2_1 V c t, blk2_2 V c t, blk2_3 V c t, blk2_4 V c t]
  obtain ⟨e0, e1, -, -, -, -, -, -, -, -, e2, -⟩ := idx2 t
  funext y
  show Cert.GcnSpec.headRows (iblk2 V c 0 t) (V c main_v4) (V c main_v1) (V c main_arg6) (V c main_v2) y
    = Cert.GcnSpec.head (V c main_arg1) (V c main_v4) (V c main_v1) (V c main_arg6) (V c main_v2) (((cfg2.win 5).blk t).view.emb y)
  refine Cert.GcnSpec.headRows_eq (V c main_arg1) (iblk2 V c 0 t) (V c main_v4) (V c main_v1) (V c main_arg6) (V c main_v2) y
    (((cfg2.win 5).blk t).view.emb y) (fun j => ?_) ?_
  · show V c main_arg1 (((cfg2.win 0).blk t).view.emb (ix2 (y 0) j)) = V c main_arg1 (ix2 ((((cfg2.win 5).blk t).view.emb y) 0) j)
    refine congrArg _ ?_
    funext a; apply Fin.ext
    match a with
    | ⟨0, _⟩ => show win2_0.index t (0 : Fin 2) * 400 + 1 * (y 0).val = win2_5.index t (0 : Fin 2) * 400 + 1 * (y 0).val; omega
    | ⟨1, _⟩ => show win2_0.index t (1 : Fin 2) * 10000 + 1 * j.val = j.val; omega
  · apply Fin.ext
    show (y 1).val = win2_5.index t (1 : Fin 2) * 128 + 1 * (y 1).val
    omega

/-- An index of the array is in point `t`'s block iff each coordinate is in the block's range on its axis. -/
theorem mem_blk2 (t : Fin cfg2.N) (i : S10000x128.Idx) :
    i ∈ ((cfg2.win 5).blk t).view.set ↔ ∀ a : Fin 2, win2_5.index t a * S400x128.size a ≤ (i a).val ∧ (i a).val < win2_5.index t a * S400x128.size a + S400x128.size a := by
  show i ∈ ((View.whole main_v5).slice (win2_5.rect t)).set ↔ _
  rw [View.set_slice_whole, Rect.mem_set_unit]
  exact Iff.rfl

/-- The 25 blocks of 400 rows cover the array. -/
theorem cover2 (i : S10000x128.Idx) : ∃ t : Fin cfg2.N, (cfg2.win 5).flush t = true ∧ i ∈ ((cfg2.win 5).blk t).view.set := by
  have hi0 : (i 0).val < 10000 := (i 0).isLt
  have hi1 : (i 1).val < 128 := (i 1).isLt
  obtain ⟨t, ht⟩ := onto2 ⟨(i 0).val / 400, by omega⟩
  have q0 : win2_5.index t (0 : Fin 2) = (i 0).val / 400 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 400 ≤ (i 0).val ∧ (i 0).val < win2_5.index t (0 : Fin 2) * 400 + 400; omega
  | ⟨1, _⟩ => show win2_5.index t (1 : Fin 2) * 128 ≤ (i 1).val ∧ (i 1).val < win2_5.index t (1 : Fin 2) * 128 + 128; omega

/-- After the region its output array holds the output layer, with its head, of the arrays the region was entered with. -/
theorem head_array (c : Dev nD) :
    (dat2 V c).arrAt 5 cfg2.N
      = Cert.GcnSpec.head (V c main_arg1) (V c main_v4) (V c main_v1) (V c main_arg6) (V c main_v2) :=
  (dat2 V c).arrAt_eq_of_cover 5 _ (fun t _ => head_flushed V c t) (cover2)

end Cert.KernelIdeal.Arrays

end
-- ==== Proof.Network.lean ====
/-
  The kernel's result buffer after the run is the two-layer graph convolution of the launch contents.

  @main is a host stretch (the three biases laid out as rows) and three regions. The projection's region leaves
  `x · W1` in its output buffer; the hidden layer's region reads that buffer, the adjacency, the first bias row and
  `W3`, and leaves  relu (adj · (x · W1) + b1) · W3;  the output layer's region reads that, the adjacency, the second
  bias row, `Wf` and the last bias row, and leaves the network's value. Each region's output array is the layer of
  the arrays it was entered with (`RegionArrays`); what it was entered with is read back through the boundaries to
  the launch contents below.
-/
import proofs.«164822_g71992241816152_cont_sun_m_564_21_alg».proof.Proof.Gen.KernelIdeal.Frame
import proofs.«164822_g71992241816152_cont_sun_m_564_21_alg».proof.Proof.RegionArrays
import proofs.«164822_g71992241816152_cont_sun_m_564_21_alg».proof.Proof.KernelRunValue
import proofs.«164822_g71992241816152_cont_sun_m_564_21_alg».proof.Proof.GcnSpec
import Idealize.ShloMosaic.Lib.Pipeline.Value
import Idealize.ShloMosaic.Lib.ValueLayout
import Idealize.ShloMosaic.Lib.StableHlo.Run

set_option maxRecDepth 16384

noncomputable section

namespace Cert.KernelIdeal.Network

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The host stretch: three bias vectors laid out as rows -/

/-- A bias vector reshaped [128] → [1, 128] is the bias as one row. -/
theorem reshape_is_row (b : Vec Ideal S128 .f32) : shapeCast S1x128 b shapeCasts_S128_S1x128 = Cert.GcnSpec.asRow b := by
  funext i
  obtain ⟨u, k, rfl⟩ : ∃ (u : Fin 1) (k : Fin 128), i = ix2 u k := ⟨i 0, i 1, eq_ix2 i⟩
  exact shapeCast_a_1a_apply b shapeCasts_S128_S1x128 u k

/-- Before the first region the three row buffers hold the three biases as rows. -/
theorem row1_host (c : Dev nD) : W1 m ρ c (Proc.devRef .tc main_v0) = Cert.GcnSpec.asRow (m ((c : Thread nD τ).loc main_arg3)) := by
  show StableHlo.after hostOps0 (W0 m ρ c) (Proc.devRef .tc main_v0) = _
  after_results
  exact reshape_is_row (m ((c : Thread nD τ).loc main_arg3))
theorem row3_host (c : Dev nD) : W1 m ρ c (Proc.devRef .tc main_v1) = Cert.GcnSpec.asRow (m ((c : Thread nD τ).loc main_arg5)) := by
  show StableHlo.after hostOps0 (W0 m ρ c) (Proc.devRef .tc main_v1) = _
  after_results
  exact reshape_is_row (m ((c : Thread nD τ).loc main_arg5))
theorem rowf_host (c : Dev nD) : W1 m ρ c (Proc.devRef .tc main_v2) = Cert.GcnSpec.asRow (m ((c : Thread nD τ).loc main_arg7)) := by
  show StableHlo.after hostOps0 (W0 m ρ c) (Proc.devRef .tc main_v2) = _
  after_results
  exact reshape_is_row (m ((c : Thread nD τ).loc main_arg7))

/-! ## What each region finds in the buffers it reads

An argument array is never written, so at every boundary it holds its launch contents: one step down from a later
boundary (an input window's array ends a region as it entered it; a buffer that is none of a region's arrays is
untouched) meets the generated fact that the argument ends the run as launched. A row buffer is written once, by the
host stretch, and is read through the same steps. -/

/-- The projection finds the features and the first weight as launched. -/
theorem x_at1 (c : Dev nD) : V1 m ρ c main_arg0 = m ((c : Thread nD τ).loc main_arg0) :=
  calc V1 m ρ c main_arg0
    _ = W2 m ρ c (Proc.devRef .tc main_arg0) := ((W2_arr m ρ c 0).trans (((dat0 (V1 m ρ) c).arrAt_in 0 rfl _).trans (A_eq0 (V1 m ρ) c 0))).symm
    _ = W3 m ρ c (Proc.devRef .tc main_arg0) := (W3_of_ne m ρ c main_arg0 (by decide)).symm
    _ = W4 m ρ c (Proc.devRef .tc main_arg0) := (W4_of_ne m ρ c main_arg0 (by decide)).symm
    _ = m ((c : Thread nD τ).loc main_arg0) := W4_main_arg0 m ρ c
theorem w1_at1 (c : Dev nD) : V1 m ρ c main_arg2 = m ((c : Thread nD τ).loc main_arg2) :=
  calc V1 m ρ c main_arg2
    _ = W2 m ρ c (Proc.devRef .tc main_arg2) := ((W2_arr m ρ c 1).trans (((dat0 (V1 m ρ) c).arrAt_in 1 rfl _).trans (A_eq0 (V1 m ρ) c 1))).symm
    _ = W3 m ρ c (Proc.devRef .tc main_arg2) := (W3_of_ne m ρ c main_arg2 (by decide)).symm
    _ = W4 m ρ c (Proc.devRef .tc main_arg2) := (W4_of_ne m ρ c main_arg2 (by decide)).symm
    _ = m ((c : Thread nD τ).loc main_arg2) := W4_main_arg2 m ρ c

/-- The hidden layer finds the adjacency and its weight as launched, and its bias as a row. -/
theorem adj_at3 (c : Dev nD) : V3 m ρ c main_arg1 = m ((c : Thread nD τ).loc main_arg1) :=
  calc V3 m ρ c main_arg1
    _ = W4 m ρ c (Proc.devRef .tc main_arg1) := ((W4_arr m ρ c 0).trans (((dat2 (V3 m ρ) c).arrAt_in 0 rfl _).trans (A_eq2 (V3 m ρ) c 0))).symm
    _ = m ((c : Thread nD τ).loc main_arg1) := W4_main_arg1 m ρ c
theorem adj_at2 (c : Dev nD) : V2 m ρ c main_arg1 = m ((c : Thread nD τ).loc main_arg1) :=
  calc V2 m ρ c main_arg1
    _ = W3 m ρ c (Proc.devRef .tc main_arg1) := ((W3_arr m ρ c 0).trans (((dat1 (V2 m ρ) c).arrAt_in 0 rfl _).trans (A_eq1 (V2 m ρ) c 0))).symm
    _ = m ((c : Thread nD τ).loc main_arg1) := adj_at3 m ρ c
theorem w3_at2 (c : Dev nD) : V2 m ρ c main_arg4 = m ((c : Thread nD τ).loc main_arg4) :=
  calc V2 m ρ c main_arg4
    _ = W3 m ρ c (Proc.devRef .tc main_arg4) := ((W3_arr m ρ c 3).trans (((dat1 (V2 m ρ) c).arrAt_in 3 rfl _).trans (A_eq1 (V2 m ρ) c 3))).symm
    _ = W4 m ρ c (Proc.devRef .tc main_arg4) := (W4_of_ne m ρ c main_arg4 (by decide)).symm
    _ = m ((c : Thread nD τ).loc main_arg4) := W4_main_arg4 m ρ c
theorem row1_at2 (c : Dev nD) : V2 m ρ c main_v0 = Cert.GcnSpec.asRow (m ((c : Thread nD τ).loc main_arg3)) :=
  calc V2 m ρ c main_v0
    _ = W1 m ρ c (Proc.devRef .tc main_v0) := W2_of_ne m ρ c main_v0 (by decide)
    _ = _ := row1_host m ρ c

/-- The output layer finds its weight as launched and its two biases as rows. -/
theorem wf_at3 (c : Dev nD) : V3 m ρ c main_arg6 = m ((c : Thread nD τ).loc main_arg6) :=
  calc V3 m ρ c main_arg6
    _ = W4 m ρ c (Proc.devRef .tc main_arg6) := ((W4_arr m ρ c 3).trans (((dat2 (V3 m ρ) c).arrAt_in 3 rfl _).trans (A_eq2 (V3 m ρ) c 3))).symm
    _ = m ((c : Thread nD τ).loc main_arg6) := W4_main_arg6 m ρ c
theorem row3_at3 (c : Dev nD) : V3 m ρ c main_v1 = Cert.GcnSpec.asRow (m ((c : Thread nD τ).loc main_arg5)) :=
  calc V3 m ρ c main_v1
    _ = V2 m ρ c main_v1 := (W3_arr m ρ c 4).trans (((dat1 (V2 m ρ) c).arrAt_in 4 rfl _).trans (A_eq1 (V2 m ρ) c 4))
    _ = W1 m ρ c (Proc.devRef .tc main_v1) := W2_of_ne m ρ c main_v1 (by decide)
    _ = _ := row3_host m ρ c
theorem rowf_at3 (c : Dev nD) : V3 m ρ c main_v2 = Cert.GcnSpec.asRow (m ((c : Thread nD τ).loc main_arg7)) :=
  calc V3 m ρ c main_v2
    _ = W2 m ρ c (Proc.devRef .tc main_v2) := W3_of_ne m ρ c main_v2 (by decide)
    _ = W1 m ρ c (Proc.devRef .tc main_v2) := W2_of_ne m ρ c main_v2 (by decide)
    _ = _ := rowf_host m ρ c

/-! ## The three output buffers, composed -/

/-- After the projection its output buffer holds `x · W1`. -/
theorem support_at2 (c : Dev nD) :
    V2 m ρ c main_v3 = Cert.GcnSpec.support (m ((c : Thread nD τ).loc main_arg0)) (m ((c : Thread nD τ).loc main_arg2)) :=
  calc V2 m ρ c main_v3
    _ = (dat0 (V1 m ρ) c).arrAt 2 cfg0.N := W2_arr m ρ c 2
    _ = Cert.GcnSpec.support (V1 m ρ c main_arg0) (V1 m ρ c main_arg2) := Arrays.support_array (V1 m ρ) c
    _ = _ := by rw [x_at1 m ρ c, w1_at1 m ρ c]

/-- After the hidden layer's region its output buffer holds  relu (adj · (x · W1) + b1) · W3. -/
theorem hidden_at3 (c : Dev nD) :
    V3 m ρ c main_v4 = Cert.GcnSpec.hidden (m ((c : Thread nD τ).loc main_arg1))
      (Cert.GcnSpec.support (m ((c : Thread nD τ).loc main_arg0)) (m ((c : Thread nD τ).loc main_arg2)))
      (Cert.GcnSpec.asRow (m ((c : Thread nD τ).loc main_arg3))) (m ((c : Thread nD τ).loc main_arg4)) :=
  calc V3 m ρ c main_v4
    _ = (dat1 (V2 m ρ) c).arrAt 5 cfg1.N := W3_arr m ρ c 5
    _ = Cert.GcnSpec.hidden (V2 m ρ c main_arg1) (V2 m ρ c main_v3) (V2 m ρ c main_v0) (V2 m ρ c main_arg4) :=
        Arrays.hidden_array (V2 m ρ) c
    _ = _ := by rw [adj_at2 m ρ c, support_at2 m ρ c, row1_at2 m ρ c, w3_at2 m ρ c]

/-- After the last region the result buffer holds the network of the launch contents. -/
theorem result_value (c : Dev nD) :
    W4 m ρ c (Proc.devRef .tc main_v5)
      = Cert.GcnSpec.gcn (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) :=
  calc W4 m ρ c (Proc.devRef .tc main_v5)
    _ = (dat2 (V3 m ρ) c).arrAt 5 cfg2.N := W4_arr m ρ c 5
    _ = Cert.GcnSpec.head (V3 m ρ c main_arg1) (V3 m ρ c main_v4) (V3 m ρ c main_v1) (V3 m ρ c main_arg6) (V3 m ρ c main_v2) :=
        Arrays.head_array (V3 m ρ) c
    _ = _ := by rw [adj_at3 m ρ c, hidden_at3 m ρ c, row3_at3 m ρ c, wf_at3 m ρ c, rowf_at3 m ρ c]; rfl

/-! ## The run, read -/

/-- Every weakly fair execution of the kernel's @main terminates, nothing faulting, with the result buffer at the
    network of the launch contents and the argument arrays as launched. -/
theorem run : θ_run defs (onTc (τ := τ) (main (F := Ideal))) ⟨m, fun _ => 0, ρ⟩ (fun r => ∀ c : Dev nD,
      r.2.mem ((c.tc : Thread nD τ).loc main_v5)
        = Cert.GcnSpec.gcn (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩)
    (Cert.KernelIdeal.RunValue.run_value (F := Ideal) m ρ)

end Cert.KernelIdeal.Network

end
-- ==== Proof.RefGcn.lean ====
/-
  The reference program, one host operation at a time, is the two-layer graph convolution `GcnSpec.gcn` of its
  arguments: each `dot_general` is a `dense` or an `aggregate`, each bias is broadcast along the rows, `relu` is the
  maximum with the zero word, and the last stage is the hyperbolic tangent.
-/
import proofs.«164822_g71992241816152_cont_sun_m_564_21_alg».proof.Proof.Gen.ReferenceIdeal.Read
import proofs.«164822_g71992241816152_cont_sun_m_564_21_alg».proof.Proof.GcnSpec

noncomputable section

namespace Cert.ReferenceIdeal.RefGcn

open Cert.ReferenceIdeal Cert.ReferenceIdeal.Gen Cert.ReferenceIdeal.Read Idealize.ShloMosaic Idealize.ShloMosaic.TcCoe
  Idealize.ShloMosaic.ValueIdx

/-- Stage 0 contracts the 128 features of its left operand against the weight: it is `dense`. -/
theorem v0_is_dense (x0 : (⟨S10000x128, .f32⟩ : BufTy).Contents (Elt Ideal)) (x2 : (⟨S128x128, .f32⟩ : BufTy).Contents (Elt Ideal)) :
    val_main_v0 (F := Ideal) x0 x2 = Cert.GcnSpec.dense x0 x2 := by
  funext i
  rw [val_main_v0_apply]
  unfold Cert.GcnSpec.dense
  refine Finset.sum_congr rfl fun k _ => ?_
  have hl : lidx_main_v0 i k = @ix2 10000 128 (i 0) k := funext fun a => by match a with | ⟨0, _⟩ => rfl | ⟨1, _⟩ => rfl
  have hr : ridx_main_v0 i k = @ix2 128 128 k (i 1) := funext fun a => by match a with | ⟨0, _⟩ => rfl | ⟨1, _⟩ => rfl
  rw [hl, hr]

/-- Stage 1 contracts the 10000 nodes of the adjacency against its right operand: it is `aggregate`. -/
theorem v1_is_aggregate (x0 : (⟨S10000x128, .f32⟩ : BufTy).Contents (Elt Ideal)) (x1 : (⟨S10000x10000, .f32⟩ : BufTy).Contents (Elt Ideal)) (x2 : (⟨S128x128, .f32⟩ : BufTy).Contents (Elt Ideal)) :
    val_main_v1 (F := Ideal) x0 x1 x2 = Cert.GcnSpec.aggregate x1 (val_main_v0 (F := Ideal) x0 x2) := by
  funext i
  rw [val_main_v1_apply]
  unfold Cert.GcnSpec.aggregate
  refine Finset.sum_congr rfl fun k _ => ?_
  have hl : lidx_main_v1 i k = @ix2 10000 10000 (i 0) k := funext fun a => by match a with | ⟨0, _⟩ => rfl | ⟨1, _⟩ => rfl
  have hr : ridx_main_v1 i k = @ix2 10000 128 k (i 1) := funext fun a => by match a with | ⟨0, _⟩ => rfl | ⟨1, _⟩ => rfl
  rw [hl, hr]

/-- Stages 2, 3, 4 and 5 add the bias, broadcast along the rows, and take the maximum with the zero word:
    together they are `biasRelu`. -/
theorem v5_is_biasRelu (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) :
    val_main_v5 (F := Ideal) x0 x1 x2 x3 = Cert.GcnSpec.biasRelu (val_main_v1 (F := Ideal) x0 x1 x2) x3 := by
  funext i
  rw [val_main_v5_apply, val_main_v4_apply, val_main_v3_apply, val_main_v2_apply,
    val_main_call0_v0_apply, val_main_call0_cst_apply,
    Ideal.maximumf_def, Ideal.addf_def, Ideal.ofBits_def, Ideal.ofBits_zero_f32]
  unfold Cert.GcnSpec.biasRelu
  have hb : idx_main_v2 (idx_main_v3 i) = @ix1 128 (i 1) := funext fun a => by match a with | ⟨0, _⟩ => rfl
  rw [hb]

/-- Stage 6 contracts the 128 features of its left operand against the weight: it is `dense`. -/
theorem v6_is_dense (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v6 (F := Ideal) x0 x1 x2 x3 x4 = Cert.GcnSpec.dense (val_main_v5 (F := Ideal) x0 x1 x2 x3) x4 := by
  funext i
  rw [val_main_v6_apply]
  unfold Cert.GcnSpec.dense
  refine Finset.sum_congr rfl fun k _ => ?_
  have hl : lidx_main_v6 i k = @ix2 10000 128 (i 0) k := funext fun a => by match a with | ⟨0, _⟩ => rfl | ⟨1, _⟩ => rfl
  have hr : ridx_main_v6 i k = @ix2 128 128 k (i 1) := funext fun a => by match a with | ⟨0, _⟩ => rfl | ⟨1, _⟩ => rfl
  rw [hl, hr]

/-- Stage 7 contracts the 10000 nodes of the adjacency against its right operand: it is `aggregate`. -/
theorem v7_is_aggregate (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v7 (F := Ideal) x0 x1 x2 x3 x4 = Cert.GcnSpec.aggregate x1 (val_main_v6 (F := Ideal) x0 x1 x2 x3 x4) := by
  funext i
  rw [val_main_v7_apply]
  unfold Cert.GcnSpec.aggregate
  refine Finset.sum_congr rfl fun k _ => ?_
  have hl : lidx_main_v7 i k = @ix2 10000 10000 (i 0) k := funext fun a => by match a with | ⟨0, _⟩ => rfl | ⟨1, _⟩ => rfl
  have hr : ridx_main_v7 i k = @ix2 10000 128 k (i 1) := funext fun a => by match a with | ⟨0, _⟩ => rfl | ⟨1, _⟩ => rfl
  rw [hl, hr]

/-- Stages 8, 9, 10 and 11 add the bias, broadcast along the rows, and take the maximum with the zero word:
    together they are `biasRelu`. -/
theorem v11_is_biasRelu (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v11 (F := Ideal) x0 x1 x2 x3 x4 x5 = Cert.GcnSpec.biasRelu (val_main_v7 (F := Ideal) x0 x1 x2 x3 x4) x5 := by
  funext i
  rw [val_main_v11_apply, val_main_v10_apply, val_main_v9_apply, val_main_v8_apply,
    val_main_call1_v0_apply, val_main_call1_cst_apply,
    Ideal.maximumf_def, Ideal.addf_def, Ideal.ofBits_def, Ideal.ofBits_zero_f32]
  unfold Cert.GcnSpec.biasRelu
  have hb : idx_main_v8 (idx_main_v9 i) = @ix1 128 (i 1) := funext fun a => by match a with | ⟨0, _⟩ => rfl
  rw [hb]

/-- Stage 12 contracts the 128 features of its left operand against the weight: it is `dense`. -/
theorem v12_is_dense (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v12 (F := Ideal) x0 x1 x2 x3 x4 x5 x6 = Cert.GcnSpec.dense (val_main_v11 (F := Ideal) x0 x1 x2 x3 x4 x5) x6 := by
  funext i
  rw [val_main_v12_apply]
  unfold Cert.GcnSpec.dense
  refine Finset.sum_congr rfl fun k _ => ?_
  have hl : lidx_main_v12 i k = @ix2 10000 128 (i 0) k := funext fun a => by match a with | ⟨0, _⟩ => rfl | ⟨1, _⟩ => rfl
  have hr : ridx_main_v12 i k = @ix2 128 128 k (i 1) := funext fun a => by match a with | ⟨0, _⟩ => rfl | ⟨1, _⟩ => rfl
  rw [hl, hr]

/-- Stages 13, 14, 15 and 16 add the bias, broadcast along the rows, and take the hyperbolic tangent: together they
    are `biasTanh`. -/
theorem v16_is_biasTanh (x0 : (⟨S10000x128, .f32⟩ : BufTy).Contents (Elt Ideal)) (x1 : (⟨S10000x10000, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v16 (F := Ideal) x0 x1 x2 x3 x4 x5 x6 x7 = Cert.GcnSpec.biasTanh (val_main_v12 (F := Ideal) x0 x1 x2 x3 x4 x5 x6) x7 := by
  funext i
  rw [val_main_v16_apply, val_main_v15_apply, val_main_v14_apply, val_main_v13_apply,
    Ideal.hostUnary_tanh_def, Ideal.addf_def]
  unfold Cert.GcnSpec.biasTanh
  have hb : idx_main_v13 (idx_main_v14 i) = @ix1 128 (i 1) := funext fun a => by match a with | ⟨0, _⟩ => rfl
  rw [hb]

/-- The reference's result stage is the network of its eight arguments. -/
theorem result_is_gcn (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v16 (F := Ideal) x0 x1 x2 x3 x4 x5 x6 x7 = Cert.GcnSpec.gcn x0 x1 x2 x3 x4 x5 x6 x7 := by
  rw [Cert.GcnSpec.gcn_eq, v16_is_biasTanh, v12_is_dense, v11_is_biasRelu, v7_is_aggregate, v6_is_dense,
    v5_is_biasRelu, v1_is_aggregate, v0_is_dense]

end Cert.ReferenceIdeal.RefGcn

end
-- ==== Proof.lean ====
/-
  The kernel — a projection  x · W1,  then  relu (adj · s + b1) · W3  on blocks of 400 rows of the adjacency, then
  tanh (relu (adj · t + b3) · Wf + bf)  on the same blocks — against the reference
  tanh (relu (adj · (relu (adj · (x · W1) + b1) · W3) + b3) · Wf + bf).

  Over the extended reals both are the one function `GcnSpec.gcn` of the eight arguments: the kernel because each
  region's output array is its layer of the arrays it was entered with and those are read back to the launch contents
  (`Network.run`), the reference because its host operations are the same layers one operation at a time
  (`RefGcn.result_is_gcn`). The two programs form the same sums in the same association, so no law of the extended
  reals that needs finite inputs is used and the precondition is never opened. Nothing was rewritten when the kernel
  was read at the extended reals, so the idealization claim is empty.
-/
import proofs.«164822_g71992241816152_cont_sun_m_564_21_alg».proof.Defs
import proofs.«164822_g71992241816152_cont_sun_m_564_21_alg».proof.Proof.Gen.Kernel
import proofs.«164822_g71992241816152_cont_sun_m_564_21_alg».proof.Proof.Gen.Kernel.Skeleton
import proofs.«164822_g71992241816152_cont_sun_m_564_21_alg».proof.Proof.Gen.Kernel.Launch
import proofs.«164822_g71992241816152_cont_sun_m_564_21_alg».proof.Proof.Gen.Kernel.Points
import proofs.«164822_g71992241816152_cont_sun_m_564_21_alg».proof.Proof.Gen.Kernel.Frame
import proofs.«164822_g71992241816152_cont_sun_m_564_21_alg».proof.Proof.Gen.KernelIdeal
import proofs.«164822_g71992241816152_cont_sun_m_564_21_alg».proof.Proof.Gen.KernelIdeal.Skeleton
import proofs.«164822_g71992241816152_cont_sun_m_564_21_alg».proof.Proof.Gen.KernelIdeal.Launch
import proofs.«164822_g71992241816152_cont_sun_m_564_21_alg».proof.Proof.Gen.KernelIdeal.Points
import proofs.«164822_g71992241816152_cont_sun_m_564_21_alg».proof.Proof.Gen.KernelIdeal.Frame
import proofs.«164822_g71992241816152_cont_sun_m_564_21_alg».proof.Proof.Gen.ReferenceIdeal
import proofs.«164822_g71992241816152_cont_sun_m_564_21_alg».proof.Proof.Gen.ReferenceIdeal.Run
import proofs.«164822_g71992241816152_cont_sun_m_564_21_alg».proof.Proof.Gen.ReferenceIdeal.Read
import proofs.«164822_g71992241816152_cont_sun_m_564_21_alg».proof.Proof.Gen.Pre_finite_inputs
import proofs.«164822_g71992241816152_cont_sun_m_564_21_alg».proof.Proof.Network
import proofs.«164822_g71992241816152_cont_sun_m_564_21_alg».proof.Proof.RefGcn
import Idealize.ShloMosaic.Adequacy
import Idealize.ShloMosaic.Init

noncomputable section

namespace Cert.Proof

open Idealize.ShloMosaic Idealize.SL.Sem

/-- The kernel as printed runs and keeps its arguments. -/
theorem frame_kernel [Cert.Kernel.Facts] [Cert.Pre_finite_inputs.Facts] : Cert.frame_Kernel :=
  fun m ρ _ => Cert.Kernel.Gen.frame m ρ

/-- So does the kernel read at the extended reals. -/
theorem frame_kernelIdeal [Cert.KernelIdeal.Facts] [Cert.Pre_finite_inputs.Facts] : Cert.frame_KernelIdeal :=
  fun m ρ _ => Cert.KernelIdeal.Gen.frame m ρ

/-- The reference is host operations only: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the arguments both programs end with the network of those arguments in their result
    buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v16_eq, Cert.ReferenceIdeal.RefGcn.result_is_gcn, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
